-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S16x4096 .f32) (main_arg3 : FVec F S4096x16 .f32) (main_arg4 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S4096 : Shape := ⟨1, ![4096]⟩
abbrev S8192x4096 : Shape := ⟨2, ![8192, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 14
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | .hbm, ⟨9, _⟩ => ⟨S8192x4096, .f32⟩
  | .hbm, ⟨10, _⟩ => ⟨S8192x4096, .bf16⟩
  | .hbm, ⟨11, _⟩ => ⟨S1x4096, .f32⟩
  | .hbm, ⟨12, _⟩ => ⟨S8192x4096, .f32⟩
  | .hbm, ⟨13, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  transposes_S4096x4096_S4096x4096_1_0 : S4096x4096.Transposes [1, 0] S4096x4096
  bitsLt_bf16_f32 : FTy.bits .bf16 < FTy.bits .f32
  shapeCasts_S4x2048x4096_S8192x4096 : S4x2048x4096.ShapeCasts S8192x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S4096x16_S16x4096_S4096x4096_1_0_0_1_n_n_wf : DotDims.WF S4096x16 S16x4096 S4096x4096 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v5) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S4096 : Shape := ⟨1, ![4096]⟩
abbrev S1x1x4096 : Shape := ⟨3, ![1, 1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S4096, .f32⟩
  | .hbm, ⟨5, _⟩ => ⟨S4x2048x4096, .f32⟩
  | .hbm, ⟨6, _⟩ => ⟨S1x1x4096, .f32⟩
  | .hbm, ⟨7, _⟩ => ⟨S4x2048x4096, .f32⟩
  | .hbm, ⟨8, _⟩ => ⟨S4x2048x4096, .f32⟩
  | .hbm, ⟨9, _⟩ => ⟨S4096x4096, .f32⟩
  | .hbm, ⟨10, _⟩ => ⟨S4x2048x4096, .f32⟩
  | .hbm, ⟨11, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []
  dot_S4096x16_S16x4096_S4096x4096_1_0_0_1_n_n_wf : DotDims.WF S4096x16 S16x4096 S4096x4096 [1] [0] [0] [1] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf

class Facts : Prop extends Facts₀ where

variable [Facts]
-- ==== Proof.Spec.lean ====
/-
  The function both programs compute, over the extended reals, and the law that joins its two arrangements.

  The five arguments are x : [4, 2048, 4096], W : [4096, 4096], A : [16, 4096], B : [4096, 16] and bias : [4096].
  With delta o k = ∑ r, B[o, r] · A[r, k] (the low-rank update of the weight), the result at (b, s, o) is

      ∑ k, x[b, s, k] · W[o, k]  +  bias[o]  +  ∑ k, x[b, s, k] · delta o k.

  One arrangement (`sepForm`) is exactly that: two contractions over all 4096 columns, the bias added to the first.
  The other (`foldForm`) adds the update to the weight first and contracts once, but in four consecutive blocks of
  1024 columns accumulated from zero, the bias added last:

      ((((0 + P 0) + P 1) + P 2) + P 3) + bias[o],    P kb = ∑ j < 1024, x[b, s, 1024·kb + j] · (W + delta)[o, 1024·kb + j].

  Regrouping the 4096 columns into four blocks and reordering the outer sums is valid in any commutative monoid, so it
  holds on the extended reals as it stands. Splitting x · (W + delta) into x · W + x · delta is NOT valid at infinities
  of opposite sign; it is where the entries must be real numbers.
-/
import Idealize.ShloMosaic.PureOps.Ideal
import Idealize.ShloMosaic.Lib.ValueIdx
import Mathlib.Data.EReal.Basic
import Mathlib.Data.EReal.Operations
import Mathlib.Algebra.BigOperators.Group.Finset.Basic
import Mathlib.Algebra.BigOperators.Fin
import Mathlib.Logic.Equiv.Fin.Basic

noncomputable section

namespace Cert.Spec

open Idealize.ShloMosaic Idealize.ShloMosaic.ValueIdx
open scoped BigOperators

abbrev SX : Shape := ⟨3, ![4, 2048, 4096]⟩
abbrev SW : Shape := ⟨2, ![4096, 4096]⟩
abbrev SA : Shape := ⟨2, ![16, 4096]⟩
abbrev SB : Shape := ⟨2, ![4096, 16]⟩
abbrev Sb : Shape := ⟨1, ![4096]⟩

/-- Every entry of an array of extended reals is a real number. -/
def RealArr {S : Shape} (x : S.Idx → EReal) : Prop := ∀ i, ∃ r : ℝ, x i = (r : EReal)

/-- Column `j` of the `kb`-th block of 1024 columns. -/
def kcol (kb : Fin 4) (j : Fin 1024) : Fin 4096 := ⟨1024 * kb.val + j.val, by omega⟩

theorem kcol_val (kb : Fin 4) (j : Fin 1024) : (kcol kb j).val = 1024 * kb.val + j.val := rfl

/-- The low-rank update of the weight at row `o`, column `k`: `∑ r, B[o, r] · A[r, k]`. -/
def delta (A : SA.Idx → EReal) (B : SB.Idx → EReal) (o k : Fin 4096) : EReal :=
  ∑ r : Fin 16, B (ix2 o r) * A (ix2 r k)

/-- The updated weight `W + B·A` at row `o`, column `k`. -/
def weff (W : SW.Idx → EReal) (A : SA.Idx → EReal) (B : SB.Idx → EReal) (o k : Fin 4096) : EReal :=
  W (ix2 o k) + delta A B o k

/-- The contraction of row `(b, s)` of `x` with row `o` of the updated weight over the `kb`-th block of columns. -/
def part (x : SX.Idx → EReal) (W : SW.Idx → EReal) (A : SA.Idx → EReal) (B : SB.Idx → EReal)
    (b : Fin 4) (s : Fin 2048) (o : Fin 4096) (kb : Fin 4) : EReal :=
  ∑ j : Fin 1024, x (ix3 b s (kcol kb j)) * weff W A B o (kcol kb j)

/-- Four blocks accumulated from zero in order, then the bias. -/
def foldForm (x : SX.Idx → EReal) (W : SW.Idx → EReal) (A : SA.Idx → EReal) (B : SB.Idx → EReal) (bias : Sb.Idx → EReal) :
    SX.Idx → EReal := fun i =>
  ((((0 + part x W A B (i 0) (i 1) (i 2) 0) + part x W A B (i 0) (i 1) (i 2) 1) + part x W A B (i 0) (i 1) (i 2) 2)
    + part x W A B (i 0) (i 1) (i 2) 3) + bias (ix1 (i 2))

/-- The base product plus the bias, plus the product with the low-rank update. -/
def sepForm (x : SX.Idx → EReal) (W : SW.Idx → EReal) (A : SA.Idx → EReal) (B : SB.Idx → EReal) (bias : Sb.Idx → EReal) :
    SX.Idx → EReal := fun i =>
  (∑ k : Fin 4096, x (ix3 (i 0) (i 1) k) * W (ix2 (i 2) k) + bias (ix1 (i 2)))
    + ∑ k : Fin 4096, x (ix3 (i 0) (i 1) k) * delta A B (i 2) k

/-- A sum over 4096 columns is the sum over four blocks of the sums over each block's 1024 columns. -/
theorem sum_blocks {M : Type*} [AddCommMonoid M] (f : Fin 4096 → M) :
    ∑ k : Fin 4096, f k = ∑ kb : Fin 4, ∑ j : Fin 1024, f (kcol kb j) := by
  rw [← Fintype.sum_prod_type']
  refine (Fintype.sum_equiv (finProdFinEquiv (m := 4) (n := 1024)) (fun p => f (kcol p.1 p.2)) f (fun p => ?_)).symm
  congr 1
  apply Fin.ext
  show 1024 * p.1.val + p.2.val = p.2.val + 1024 * p.1.val
  omega

/-- On real numbers multiplication distributes over addition. -/
theorem mul_add_of_real {a b c : EReal} (ha : ∃ r : ℝ, a = (r : EReal)) (hb : ∃ r : ℝ, b = (r : EReal))
    (hc : ∃ r : ℝ, c = (r : EReal)) : a * (b + c) = a * b + a * c := by
  obtain ⟨ra, rfl⟩ := ha
  obtain ⟨rb, rfl⟩ := hb
  obtain ⟨rc, rfl⟩ := hc
  rw [← EReal.coe_add, ← EReal.coe_mul, ← EReal.coe_mul, ← EReal.coe_mul, ← EReal.coe_add, mul_add]

/-- The update of a real weight by real factors is real. -/
theorem delta_real {A : SA.Idx → EReal} {B : SB.Idx → EReal} (hA : RealArr A) (hB : RealArr B) (o k : Fin 4096) :
    ∃ r : ℝ, delta A B o k = (r : EReal) := by
  unfold delta
  refine Finset.sum_induction _ (fun y => ∃ r : ℝ, y = (r : EReal)) ?_ ⟨0, EReal.coe_zero.symm⟩ ?_
  · rintro _ _ ⟨a, rfl⟩ ⟨b, rfl⟩
    exact ⟨a + b, (EReal.coe_add a b).symm⟩
  · intro r _
    obtain ⟨a, ha⟩ := hB (ix2 o r)
    obtain ⟨b, hb⟩ := hA (ix2 r k)
    exact ⟨a * b, by rw [ha, hb, EReal.coe_mul]⟩

/-- THE LAW: on real entries the blockwise fold over the updated weight is the sum of the two separate products. -/
theorem foldForm_eq_sepForm {x : SX.Idx → EReal} {W : SW.Idx → EReal} {A : SA.Idx → EReal} {B : SB.Idx → EReal}
    (bias : Sb.Idx → EReal) (hx : RealArr x) (hW : RealArr W) (hA : RealArr A) (hB : RealArr B) :
    foldForm x W A B bias = sepForm x W A B bias := by
  funext i
  unfold foldForm sepForm
  have hsplit : ∑ k : Fin 4096, x (ix3 (i 0) (i 1) k) * weff W A B (i 2) k
      = ∑ k : Fin 4096, x (ix3 (i 0) (i 1) k) * W (ix2 (i 2) k) + ∑ k : Fin 4096, x (ix3 (i 0) (i 1) k) * delta A B (i 2) k := by
    rw [← Finset.sum_add_distrib]
    refine Finset.sum_congr rfl fun k _ => ?_
    exact mul_add_of_real (hx _) (hW _) (delta_real hA hB _ _)
  have hfold : (((0 + part x W A B (i 0) (i 1) (i 2) 0) + part x W A B (i 0) (i 1) (i 2) 1) + part x W A B (i 0) (i 1) (i 2) 2)
      + part x W A B (i 0) (i 1) (i 2) 3 = ∑ k : Fin 4096, x (ix3 (i 0) (i 1) k) * weff W A B (i 2) k := by
    rw [sum_blocks, Fin.sum_univ_four, zero_add]
    rfl
  rw [hfold, hsplit, add_right_comm]

end Cert.Spec

end
-- ==== Proof.Finite.lean ====
/-
  From the precondition to "every entry of every argument is a real number".

  The precondition is the conjunction, over the five arguments, of "every entry x satisfies |x| < +∞". Over the
  extended reals |x| is max x (-x), and +∞ is the value the pattern 0x7F800000 denotes. An extended real is -∞, a real
  number or +∞; at either infinity max x (-x) is +∞, which is not below +∞, so an entry that passes the test is a real
  number. The conjunction being 1 gives each of its five conjuncts, and a conjunct (an "all" over an array) being 1 gives
  the test at every index of that array.
-/
import proofs.«146806_j68702296867424_1_alg».proof.Pre_finite_inputs
import proofs.«146806_j68702296867424_1_alg».proof.Proof.Spec
import Idealize.ShloMosaic.Lib.ReduceAll
import Idealize.ShloMosaic.PureOps.Ideal

noncomputable section

namespace Cert.Finite

open Idealize.ShloMosaic Cert.Pre_finite_inputs

/-- The shape of rank zero has exactly one index: the function on no coordinates. -/
instance : Subsingleton S_.Idx := ⟨fun a b => funext fun d => d.elim0⟩

/-- An extended real whose absolute value `max y (-y)` is below `+∞` is a real number: at `-∞` and at `+∞` that
    maximum is `+∞` itself. -/
theorem real_of_abs_lt_top {y : EReal} (h : max y (-y) < ⊤) : ∃ r : ℝ, y = (r : EReal) := by
  induction y using EReal.rec with
  | bot => simp at h
  | coe r => exact ⟨r, rfl⟩
  | top => simp at h

/-- One entry's test read back, over an arbitrary shape: if the comparison `|x| < c` is 1 at index `i`, where `c` is
    the scalar of pattern `0x7F800000` (that is `+∞`) broadcast to the shape of `x`, then `x i` is a real number. -/
theorem real_of_cmp {S : Shape} (hb : S_.BroadcastsInDim S (![] : Fin 0 → Fin S.rank)) (x : FVec Ideal S .f32) (i : S.Idx)
    (h : cmpf .olt (Host.absf x) (broadcastInDim S ![] hb (constant S_ .f32 0x7F800000#32)) i = 1#1) :
    ∃ r : ℝ, x i = (r : EReal) := by
  -- at index i the comparison is the order's < between max (x i) (-(x i)) and the value of the pattern
  have h' : Ideal.cmp .olt (max (x i) (-(x i))) (Ideal.ofBits .f32 0x7F800000#32) = 1#1 := h
  -- exponent field all ones, fraction zero, sign clear: +∞
  have htop : Ideal.ofBits .f32 0x7F800000#32 = ⊤ := by simp [Ideal.ofBits, Ideal.ieee]
  rw [htop] at h'
  apply real_of_abs_lt_top
  -- were the strict inequality false, the comparison would be 0, not 1
  by_contra hc
  simp [Ideal.cmp, hc] at h'

/-- The precondition holds only of arrays all of whose entries are real numbers. -/
theorem real_of_pre [Cert.Pre_finite_inputs.Facts]
    (x0 : FVec Ideal Cert.Pre_finite_inputs.S4x2048x4096 .f32) (x1 : FVec Ideal Cert.Pre_finite_inputs.S4096x4096 .f32)
    (x2 : FVec Ideal Cert.Pre_finite_inputs.S16x4096 .f32) (x3 : FVec Ideal Cert.Pre_finite_inputs.S4096x16 .f32)
    (x4 : FVec Ideal Cert.Pre_finite_inputs.S4096 .f32)
    (h : Cert.Pre_finite_inputs.fn (F := Ideal) x0 x1 x2 x3 x4 = fun _ => 1#1) :
    Cert.Spec.RealArr x0 ∧ Cert.Spec.RealArr x1 ∧ Cert.Spec.RealArr x2 ∧ Cert.Spec.RealArr x3 ∧ Cert.Spec.RealArr x4 := by
  -- the result has one index; there the function is ((((all0 ∧ all1) ∧ all2) ∧ all3) ∧ all4)
  have h0 := congrFun h ValueIdx.ix0
  dsimp only [Cert.Pre_finite_inputs.fn, Cert.Pre_finite_inputs.fn_part1] at h0
  -- a conjunction of one-bit words is 1 exactly when both words are 1: peel the four conjunctions from the outside
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  -- each "all" that is 1 had a 1 at every index, and a 1 there says that entry is a real number
  exact ⟨fun i => real_of_cmp _ x0 i (Host.reduce_andi_all _ _ _ _ _ e0 i),
    fun i => real_of_cmp _ x1 i (Host.reduce_andi_all _ _ _ _ _ e1 i),
    fun i => real_of_cmp _ x2 i (Host.reduce_andi_all _ _ _ _ _ e2 i),
    fun i => real_of_cmp _ x3 i (Host.reduce_andi_all _ _ _ _ _ e3 i),
    fun i => real_of_cmp _ x4 i (Host.reduce_andi_all _ _ _ _ _ e4 i)⟩

end Cert.Finite

end
-- ==== Proof.RefValue.lean ====
import proofs.«146806_j68702296867424_1_alg».proof.Proof.Gen.ReferenceIdeal.Read
import proofs.«146806_j68702296867424_1_alg».proof.Proof.Spec

/-
  The reference program's result, read at an index, is the separated arrangement of the specification.

  The program computes, in order: the contraction of x with W over the 4096 columns; the bias broadcast along the
  first two axes; their sum; the low-rank update B·A as a contraction over the 16 inner columns; the contraction of x
  with that update over the 4096 columns; and the sum of the two. Reading each stage at an index (b, s, o) and
  identifying the stages' index functions with the coordinate constructors gives, term for term,

      (∑ k, x[b, s, k] · W[o, k] + bias[o]) + ∑ k, x[b, s, k] · (∑ r, B[o, r] · A[r, k]).

  No algebraic law is used: the two sides are the same expression.
-/

noncomputable section

namespace Cert.RefValue

open Cert.ReferenceIdeal Cert.ReferenceIdeal.Read Idealize.ShloMosaic Idealize.ShloMosaic.ValueIdx
open scoped BigOperators

variable [Cert.ReferenceIdeal.Facts]

/-- The left index of both contractions over the 4096 columns is (b, s, k). -/
theorem lidx_v0_eq (i : S4x2048x4096.Idx) (k : Fin 4096) : lidx_main_v0 i k = (ix3 (i 0) (i 1) k : S4x2048x4096.Idx) :=
  funext fun a => Fin.ext (by match a with | ⟨0, _⟩ => rfl | ⟨1, _⟩ => rfl | ⟨2, _⟩ => rfl)

/-- The right index of both contractions over the 4096 columns is (o, k). -/
theorem ridx_v0_eq (i : S4x2048x4096.Idx) (k : Fin 4096) : ridx_main_v0 i k = (ix2 (i 2) k : S4096x4096.Idx) :=
  funext fun a => Fin.ext (by match a with | ⟨0, _⟩ => rfl | ⟨1, _⟩ => rfl)

theorem lidx_v5_eq (i : S4x2048x4096.Idx) (k : Fin 4096) : lidx_main_v5 i k = (ix3 (i 0) (i 1) k : S4x2048x4096.Idx) :=
  funext fun a => Fin.ext (by match a with | ⟨0, _⟩ => rfl | ⟨1, _⟩ => rfl | ⟨2, _⟩ => rfl)

theorem ridx_v5_eq (i : S4x2048x4096.Idx) (k : Fin 4096) : ridx_main_v5 i k = (ix2 (i 2) k : S4096x4096.Idx) :=
  funext fun a => Fin.ext (by match a with | ⟨0, _⟩ => rfl | ⟨1, _⟩ => rfl)

/-- The update's contraction reads B at (o, r) and A at (r, k). -/
theorem lidx_v4_eq (o k : Fin 4096) (r : Fin 16) : lidx_main_v4 (ix2 o k) r = ix2 o r :=
  funext fun a => Fin.ext (by match a with | ⟨0, _⟩ => rfl | ⟨1, _⟩ => rfl)

theorem ridx_v4_eq (o k : Fin 4096) (r : Fin 16) : ridx_main_v4 (ix2 o k) r = ix2 r k :=
  funext fun a => Fin.ext (by match a with | ⟨0, _⟩ => rfl | ⟨1, _⟩ => rfl)

/-- The two broadcasts read the bias at o. -/
theorem idx_bias_eq (i : S4x2048x4096.Idx) : idx_main_v1 (idx_main_v2 i) = (ix1 (i 2) : S4096.Idx) :=
  funext fun a => Fin.ext (by match a with | ⟨0, _⟩ => rfl)

/-- The update stage at (o, k) is the specification's update. -/
theorem v4_eq_delta (x2 : (⟨S16x4096, .f32⟩ : BufTy).Contents (Elt Ideal)) (x3 : (⟨S4096x16, .f32⟩ : BufTy).Contents (Elt Ideal))
    (o k : Fin 4096) : val_main_v4 (F := Ideal) x2 x3 (ix2 o k) = Cert.Spec.delta x2 x3 o k := by
  rw [val_main_v4_apply]
  unfold Cert.Spec.delta
  refine Finset.sum_congr rfl fun r _ => ?_
  rw [lidx_v4_eq, ridx_v4_eq]

/-- The reference program's result is the separated arrangement: the base product plus the bias, plus the product with
    the low-rank update. -/
theorem ref_eq_sepForm
    (x0 : (⟨Cert.ReferenceIdeal.S4x2048x4096, .f32⟩ : BufTy).Contents (Elt Ideal)) (x1 : (⟨Cert.ReferenceIdeal.S4096x4096, .f32⟩ : BufTy).Contents (Elt Ideal))
    (x2 : (⟨Cert.ReferenceIdeal.S16x4096, .f32⟩ : BufTy).Contents (Elt Ideal)) (x3 : (⟨Cert.ReferenceIdeal.S4096x16, .f32⟩ : BufTy).Contents (Elt Ideal))
    (x4 : (⟨Cert.ReferenceIdeal.S4096, .f32⟩ : BufTy).Contents (Elt Ideal)) :
    Cert.ReferenceIdeal.Read.val_main_v6 (F := Ideal) x0 x1 x2 x3 x4 = Cert.Spec.sepForm x0 x1 x2 x3 x4 := by
  funext i
  rw [val_main_v6_apply, val_main_v3_apply, val_main_v0_apply, val_main_v2_apply, val_main_v1_apply, val_main_v5_apply,
    Ideal.addf_def, Ideal.addf_def, idx_bias_eq]
  unfold Cert.Spec.sepForm
  congr 1
  · congr 1
    refine Finset.sum_congr rfl fun k _ => ?_
    exact congrArg₂ (· * ·) (congrArg x0 (lidx_v0_eq i k)) (congrArg x1 (ridx_v0_eq i k))
  · refine Finset.sum_congr rfl fun k _ => ?_
    exact congrArg₂ (· * ·) (congrArg x0 (lidx_v5_eq i k))
      ((congrArg (val_main_v4 (F := Ideal) x2 x3) (ridx_v5_eq i k)).trans (v4_eq_delta x2 x3 (i 2) k))

end Cert.RefValue

end
-- ==== Proof.KPieces.lean ====
/-
  What each control case of the kernel body leaves behind, as a pure function of what it found.

  The body keeps a running [1024, 1024] accumulator in a scratch buffer across the four consecutive grid points that
  share an output block. With `step acc x w = acc + x · w` (the block product into a zero accumulator, added to the
  running one), the first of the four points resets the accumulator to zero and leaves `step 0 x w`; the two middle
  points leave `step acc x w` over what the point before left; the last point leaves the same in the accumulator and
  stores `step acc x w + bias` (the bias row broadcast down the rows) into the output block.
-/
import proofs.«146806_j68702296867424_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KV

open Cert.KernelIdeal Cert.KernelIdeal.Gen

variable {F : FTy → Type} [FloatOps F]

/-- The origin of a rank-2 rectangle. -/
theorem hz : (![0, 0] : Fin 2 → Nat) = fun _ => 0 := funext fun a => by fin_cases a <;> rfl

/-- A middle point: the accumulator found at `xs0` ends at `xs0 + x0 · x1`. -/
theorem sout_B (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : ¬cond0_1 i) (x0 x1 : Vec F S1024x1024 .bf16) (x2 : Vec F S1x1024 .f32) (xs0 : Vec F S1024x1024 .f32) :
    sout0_B_0 c i a3 h3 a4 h4 a5 h5 a6 h6 a7 h7 hc0 hc1 x0 x1 x2 xs0 = k0_pay2 xs0 x0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero hz]
  simp only [View.readAt_eq_ld, h7.read_unread, h3.read_unread, h4.read_unread, View.ld_unit_zero (S := S1024x1024) hz]

/-- The first point: the accumulator is reset to the zero block, read back, and ends at `0 + x0 · x1`. -/
theorem sout_A (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : cond0_0 i) (hc1 : ¬cond0_1 i) (x0 x1 : Vec F S1024x1024 .bf16) (x2 : Vec F S1x1024 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- The last point: the output block ends at the updated accumulator plus the bias row. -/
theorem out_C (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1x1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i) (x0 x1 : Vec F S1024x1024 .bf16) (x2 : Vec F S1x1024 .f32) (xs0 : Vec F S1024x1024 .f32) :
    out0_C_3 c i a3 h3 a4 h4 a5 h5 a6 h6 a7 h7 hc0 hc1 x0 x1 x2 xs0 = k0_pay3 (k0_pay2 xs0 x0 x1) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz]
  simp only [View.readAt_eq_ld, h7.read_unread, h3.read_unread, h4.read_unread, h5.read_unread,
    View.ld_unit_zero (S := S1024x1024) hz, View.ld_unit_zero (S := S1x1024) hz, View.readCov_unit_zero (S := S1024x1024) _ hz]

end Cert.KernelIdeal.KV

end
-- ==== Proof.KMath.lean ====
/-
  The kernel body's three stored values, and the host's weight update, read at an index over the extended reals.

  At the ideal reading a change of float format is the identity, the zero literal is 0, the matrix unit's product
  into a zero accumulator at (p, q) is ∑ j, x[p, j] · w[j, q], and the host's dot_general of B [4096, 16] with
  A [16, 4096] at (o, k) is ∑ r, B[o, r] · A[r, k].
-/
import proofs.«146806_j68702296867424_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.KV

open Cert.KernelIdeal Cert.KernelIdeal.Gen

/-! ## The block product's operand indices -/

theorem mm_lhs_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem mm_lhs_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem mm_rhs_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem mm_rhs_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The block product into a zero accumulator at (p, q): the sum over the 1024 contracted positions. -/
theorem matmul_zero_apply (x0 x1 : FVec Ideal S1024x1024 .bf16) (p q : Fin 1024) :
    matmul dot_S1024x1024_S1024x1024_S1024x1024_1_0_0_1_n_n none x0 x1 (constant (F := Ideal) S1024x1024 .f32 0x00000000#32) (ix2 p q)
      = ∑ j : Fin 1024, x0 (ix2 p j) * x1 (ix2 j q) := by
  show FloatOps.matmul dot_S1024x1024_S1024x1024_S1024x1024_1_0_0_1_n_n none x0 x1 (constant (F := Ideal) S1024x1024 .f32 0x00000000#32) (ix2 p q) = _
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact mm_lhs_0 _ _
    | ⟨1, _⟩ => exact (mm_lhs_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (mm_rhs_0 _ _).trans hk
    | ⟨1, _⟩ => exact mm_rhs_1 _ _)
  rw [el, er]

/-! ## The three stored values -/

/-- The reset stores zeros. -/
theorem pay1_apply (y : S1024x1024.Idx) : (k0_pay1 (F := Ideal)) y = 0 := by
  unfold k0_pay1
  simp only [shapeCast_self]
  show Ideal.ofBits .f32 0x00000000#32 = 0
  exact Ideal.ofBits_zero_f32

/-- The accumulator update at (p, q): what it held plus the block product. -/
theorem pay2_apply (acc : FVec Ideal S1024x1024 .f32) (x0 x1 : FVec Ideal S1024x1024 .bf16) (p q : Fin 1024) :
    k0_pay2 (F := Ideal) acc x0 x1 (ix2 p q) = acc (ix2 p q) + ∑ j : Fin 1024, x0 (ix2 p j) * x1 (ix2 j q) := by
  unfold k0_pay2
  simp only [shapeCast_self]
  show acc (ix2 p q) + matmul dot_S1024x1024_S1024x1024_S1024x1024_1_0_0_1_n_n none x0 x1 (constant (F := Ideal) S1024x1024 .f32 0x00000000#32) (ix2 p q) = _
  rw [matmul_zero_apply]

/-- The output block at (p, q): the accumulator plus the bias row's entry q. -/
theorem pay3_apply (a : FVec Ideal S1024x1024 .f32) (b : FVec Ideal S1x1024 .f32) (p q : Fin 1024) :
    k0_pay3 (F := Ideal) a b (ix2 p q) = a (ix2 p q) + b (ix2 (0 : Fin 1) q) := by
  unfold k0_pay3
  simp only [shapeCast_self]
  show a (ix2 p q) + broadcastTo S1024x1024 b broadcasts_S1x1024_S1024x1024 (ix2 p q) = _
  rw [broadcastTo_apply b broadcasts_S1x1024_S1024x1024 (ix2 p q) (ix2 (0 : Fin 1) q) (fun a => by
    match a with
    | ⟨0, _⟩ => rfl
    | ⟨1, _⟩ => rfl)]

/-! ## The host's weight update -/

theorem wu_lhs_0 (i : S4096x4096.Idx) (q : dot_S4096x16_S16x4096_S4096x4096_1_0_0_1_n_n.contr.Idx) :
    (dot_S4096x16_S16x4096_S4096x4096_1_0_0_1_n_n.lhsIdx i q 0).val = (i 0).val := by
  unfold DotDims.lhsIdx
  rw [dif_neg (show ¬(0 : Fin S4096x16.rank) ∈ dot_S4096x16_S16x4096_S4096x4096_1_0_0_1_n_n.lhsBatch by decide), dif_pos (show (0 : Fin S4096x16.rank) ∈ dot_S4096x16_S16x4096_S4096x4096_1_0_0_1_n_n.lhsNonContracting by decide)]
  rfl
theorem wu_lhs_1 (i : S4096x4096.Idx) (q : dot_S4096x16_S16x4096_S4096x4096_1_0_0_1_n_n.contr.Idx) :
    (dot_S4096x16_S16x4096_S4096x4096_1_0_0_1_n_n.lhsIdx i q 1).val = (q ⟨0, by decide⟩).val :=
  dot_S4096x16_S16x4096_S4096x4096_1_0_0_1_n_n.lhsIdx_val_of_single rfl i q
theorem wu_rhs_0 (i : S4096x4096.Idx) (q : dot_S4096x16_S16x4096_S4096x4096_1_0_0_1_n_n.contr.Idx) :
    (dot_S4096x16_S16x4096_S4096x4096_1_0_0_1_n_n.rhsIdx i q 0).val = (q ⟨0, by decide⟩).val :=
  dot_S4096x16_S16x4096_S4096x4096_1_0_0_1_n_n.rhsIdx_val_of_single rfl i q
theorem wu_rhs_1 (i : S4096x4096.Idx) (q : dot_S4096x16_S16x4096_S4096x4096_1_0_0_1_n_n.contr.Idx) :
    (dot_S4096x16_S16x4096_S4096x4096_1_0_0_1_n_n.rhsIdx i q 1).val = (i 1).val := by
  unfold DotDims.rhsIdx
  rw [dif_neg (show ¬(1 : Fin S16x4096.rank) ∈ dot_S4096x16_S16x4096_S4096x4096_1_0_0_1_n_n.rhsBatch by decide), dif_pos (show (1 : Fin S16x4096.rank) ∈ dot_S4096x16_S16x4096_S4096x4096_1_0_0_1_n_n.rhsNonContracting by decide)]
  rfl

/-- The host's product of B [4096, 16] and A [16, 4096] at (o, k): the sum over the rank-16 axis. -/
theorem hostDot_apply (Bm : FVec Ideal S4096x16 .f32) (A : FVec Ideal S16x4096 .f32) (o k : Fin 4096) :
    Host.dotGeneral dot_S4096x16_S16x4096_S4096x4096_1_0_0_1_n_n none Bm A (ix2 o k) = ∑ r : Fin 16, Bm (ix2 o r) * A (ix2 r k) := by
  show FloatOps.dotGeneral dot_S4096x16_S16x4096_S4096x4096_1_0_0_1_n_n none .single Bm A (ix2 o k) = _
  rw [Ideal.dotGeneral_apply, ← Equiv.sum_comp (ValueIdx.contrEquiv1 dot_S4096x16_S16x4096_S4096x4096_1_0_0_1_n_n 16 rfl rfl).symm]
  refine Finset.sum_congr rfl fun r _ => ?_
  have hk := ValueIdx.contrEquiv1_symm_val dot_S4096x16_S16x4096_S4096x4096_1_0_0_1_n_n 16 rfl rfl r
  have el : dot_S4096x16_S16x4096_S4096x4096_1_0_0_1_n_n.lhsIdx (ix2 o k) ((ValueIdx.contrEquiv1 dot_S4096x16_S16x4096_S4096x4096_1_0_0_1_n_n 16 rfl rfl).symm r) = ix2 o r := funext fun a => Fin.ext (by
    match a with
    | ⟨0, _⟩ => exact wu_lhs_0 _ _
    | ⟨1, _⟩ => exact (wu_lhs_1 _ _).trans hk)
  have er : dot_S4096x16_S16x4096_S4096x4096_1_0_0_1_n_n.rhsIdx (ix2 o k) ((ValueIdx.contrEquiv1 dot_S4096x16_S16x4096_S4096x4096_1_0_0_1_n_n 16 rfl rfl).symm r) = ix2 r k := funext fun a => Fin.ext (by
    match a with
    | ⟨0, _⟩ => exact (wu_rhs_0 _ _).trans hk
    | ⟨1, _⟩ => exact wu_rhs_1 _ _)
  rw [el, er]

end Cert.KernelIdeal.KV

end
-- ==== Proof.KBlocks.lean ====
/-
  What the kernel region finds in its three input arrays, and what each grid point's blocks read of them.

  Before the region the host computes: the updated weight W + B·A, transposed to [in, out] (so entry (k, o) is
  (W + B·A)[o, k]); x flattened from [4, 2048, 4096] to [8192, 4096] (row 2048·b + s is row (b, s)); the bias as one row
  [1, 4096]. The two casts to bf16 are the identity at the ideal reading.

  The grid is 8 × 4 × 4, point t = (16·i + 4·j + kb): block (i, kb) of the flattened x, block (kb, j) of the transposed
  weight, block (0, j) of the bias row, block (i, j) of the output. A block's entry (p, q) is the array's entry
  (1024 · block row + p, 1024 · block column + q).
-/
import proofs.«146806_j68702296867424_1_alg».proof.Proof.Gen.KernelIdeal.Frame
import proofs.«146806_j68702296867424_1_alg».proof.Proof.KMath
import proofs.«146806_j68702296867424_1_alg».proof.Proof.Spec
import Idealize.ShloMosaic.Lib.Pipeline.Value
import Idealize.ShloMosaic.Lib.Tactic
import Idealize.ShloMosaic.Lib.ValueIdx
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen

section AnyF
variable {F : FTy → Type} [FloatOps F]
variable (m : (ℓ : Loc nD τ sig) → Buf (Elt F) ℓ)

/-! ## The arrays the region finds -/

/-- The flattened x. -/
theorem V_v5 (c : Dev nD) : (V m c main_v5 : FVec F S8192x4096 .bf16)
    = truncf .bf16 (shapeCast S8192x4096 (m ((c : Thread nD τ).loc main_arg0)) shapeCasts_S4x2048x4096_S8192x4096) bitsLt_bf16_f32 := by
  show StableHlo.after hostOps0 (fun b => m (c, b)) (Proc.devRef .tc main_v5) = _
  after_results
  rfl

/-- The updated weight, transposed. -/
theorem V_v3 (c : Dev nD) : (V m c main_v3 : FVec F S4096x4096 .bf16)
    = truncf .bf16 (transpose S4096x4096 [1, 0] (addf (m ((c : Thread nD τ).loc main_arg1))
        (Host.dotGeneral dot_S4096x16_S16x4096_S4096x4096_1_0_0_1_n_n none (m ((c : Thread nD τ).loc main_arg3)) (m ((c : Thread nD τ).loc main_arg2))))
        transposes_S4096x4096_S4096x4096_1_0) bitsLt_bf16_f32 := by
  show StableHlo.after hostOps0 (fun b => m (c, b)) (Proc.devRef .tc main_v3) = _
  after_results

/-- The bias as a row. -/
theorem V_v6 (c : Dev nD) : (V m c main_v6 : FVec F S1x4096 .f32)
    = shapeCast S1x4096 (m ((c : Thread nD τ).loc main_arg4)) shapeCasts_S4096_S1x4096 := by
  show StableHlo.after hostOps0 (fun b => m (c, b)) (Proc.devRef .tc main_v6) = _
  after_results
  rfl

/-! ## The block indices, decided over the grid -/

theorem idx0 : ∀ t : Fin cfg0.N, win0_0.index t 0 = t.val / 16 ∧ win0_0.index t 1 = t.val % 4 :=
  (by decide +kernel : ∀ t : Fin grid0.N, win0_0.index t 0 = t.val / 16 ∧ win0_0.index t 1 = t.val % 4)
theorem idx1 : ∀ t : Fin cfg0.N, win0_1.index t 0 = t.val % 4 ∧ win0_1.index t 1 = t.val / 4 % 4 :=
  (by decide +kernel : ∀ t : Fin grid0.N, win0_1.index t 0 = t.val % 4 ∧ win0_1.index t 1 = t.val / 4 % 4)
theorem idx2 : ∀ t : Fin cfg0.N, win0_2.index t 0 = 0 ∧ win0_2.index t 1 = t.val / 4 % 4 :=
  (by decide +kernel : ∀ t : Fin grid0.N, win0_2.index t 0 = 0 ∧ win0_2.index t 1 = t.val / 4 % 4)
theorem idx3 : ∀ t : Fin cfg0.N, win0_3.index t 0 = t.val / 16 ∧ win0_3.index t 1 = t.val / 4 % 4 :=
  (by decide +kernel : ∀ t : Fin grid0.N, win0_3.index t 0 = t.val / 16 ∧ win0_3.index t 1 = t.val / 4 % 4)

/-! ## The blocks read of the arrays -/

/-- Point t's block of the flattened x at (p, j). -/
theorem xblk_apply (c : Dev nD) (t : Fin cfg0.N) (p j : Fin 1024) (row : Fin 8192) (col : Fin 4096)
    (hr : row.val = 1024 * (t.val / 16) + p.val) (hc : col.val = 1024 * (t.val % 4) + j.val) :
    (iblk m c 0 t : Vec F S1024x1024 .bf16) (ix2 p j) = (V m c main_v5 : FVec F S8192x4096 .bf16) (ix2 row col) := by
  unfold iblk
  rw [View.read_apply]
  show V m c main_v5 _ = V m c main_v5 _
  congr 1
  funext a
  apply Fin.ext
  match a with
  | ⟨0, _⟩ => show win0_0.index t 0 * 1024 + 1 * p.val = row.val; rw [(idx0 t).1, hr]; omega
  | ⟨1, _⟩ => show win0_0.index t 1 * 1024 + 1 * j.val = col.val; rw [(idx0 t).2, hc]; omega

/-- Point t's block of the transposed weight at (j, q). -/
theorem wblk_apply (c : Dev nD) (t : Fin cfg0.N) (j q : Fin 1024) (row col : Fin 4096)
    (hr : row.val = 1024 * (t.val % 4) + j.val) (hc : col.val = 1024 * (t.val / 4 % 4) + q.val) :
    (iblk m c 1 t : Vec F S1024x1024 .bf16) (ix2 j q) = (V m c main_v3 : FVec F S4096x4096 .bf16) (ix2 row col) := by
  unfold iblk
  rw [View.read_apply]
  show V m c main_v3 _ = V m c main_v3 _
  congr 1
  funext a
  apply Fin.ext
  match a with
  | ⟨0, _⟩ => show win0_1.index t 0 * 1024 + 1 * j.val = row.val; rw [(idx1 t).1, hr]; omega
  | ⟨1, _⟩ => show win0_1.index t 1 * 1024 + 1 * q.val = col.val; rw [(idx1 t).2, hc]; omega

/-- Point t's block of the bias row at (0, q). -/
theorem bblk_apply (c : Dev nD) (t : Fin cfg0.N) (q : Fin 1024) (col : Fin 4096)
    (hc : col.val = 1024 * (t.val / 4 % 4) + q.val) :
    (iblk m c 2 t : Vec F S1x1024 .f32) (ix2 (0 : Fin 1) q) = (V m c main_v6 : FVec F S1x4096 .f32) (ix2 (0 : Fin 1) col) := by
  unfold iblk
  rw [View.read_apply]
  show V m c main_v6 _ = V m c main_v6 _
  congr 1
  funext a
  apply Fin.ext
  match a with
  | ⟨0, _⟩ => show win0_2.index t 0 * 1 + 1 * 0 = 0; rw [(idx2 t).1]
  | ⟨1, _⟩ => show win0_2.index t 1 * 1024 + 1 * q.val = col.val; rw [(idx2 t).2, hc]; omega

end AnyF

/-! ## The arrays at an index, over the extended reals -/

section AtIdeal
variable (mI : (ℓ : Loc nD τ sig) → Buf (Elt Ideal) ℓ)

/-- Row 2048·b + s of the flattened x is row (b, s) of x. -/
theorem X_apply (c : Dev nD) (b : Fin 4) (s : Fin 2048) (k : Fin 4096) (row : Fin 8192) (hrow : row.val = 2048 * b.val + s.val) :
    (V mI c main_v5 : FVec Ideal S8192x4096 .bf16) (ix2 row k) = (mI ((c : Thread nD τ).loc main_arg0)) (ix3 b s k) := by
  rw [V_v5]
  show shapeCast S8192x4096 (mI ((c : Thread nD τ).loc main_arg0)) shapeCasts_S4x2048x4096_S8192x4096 (ix2 row k) = _
  refine shapeCast_apply _ _ _ _ ?_
  show (S4x2048x4096.rowMajor (ix3 b s k)).val = (S8192x4096.rowMajor (ix2 row k)).val
  rw [Shape.rowMajor_val_three, Shape.rowMajor_val_two]
  show (b.val * 2048 + s.val) * 4096 + k.val = row.val * 4096 + k.val
  rw [hrow]
  omega

/-- Entry (k, o) of the transposed updated weight is the updated weight at row o, column k. -/
theorem Wt_apply (c : Dev nD) (k o : Fin 4096) :
    (V mI c main_v3 : FVec Ideal S4096x4096 .bf16) (ix2 k o)
      = Cert.Spec.weff (mI ((c : Thread nD τ).loc main_arg1)) (mI ((c : Thread nD τ).loc main_arg2)) (mI ((c : Thread nD τ).loc main_arg3)) o k := by
  rw [V_v3, truncf_apply, transpose_ix2_apply, addf_apply, hostDot_apply]
  rfl

/-- Entry (0, o) of the bias row is the bias at o. -/
theorem b6_apply (c : Dev nD) (o : Fin 4096) :
    (V mI c main_v6 : FVec Ideal S1x4096 .f32) (ix2 (0 : Fin 1) o) = (mI ((c : Thread nD τ).loc main_arg4)) (ix1 o) := by
  rw [V_v6]
  exact shapeCast_a_1a_apply _ _ 0 o

end AtIdeal

end Cert.KernelIdeal.KV

end
-- ==== Proof.KAcc.lean ====
/-
  The accumulator across the four grid points of one output block, and the block the last of them stores.

  Grid points 4g, 4g + 1, 4g + 2, 4g + 3 share output block g and visit the four consecutive blocks of 1024 columns
  of the contracted axis. The first resets the accumulator and adds its block product, the next two add theirs, the
  last adds its own and stores accumulator + bias. So at the last point the stored block at (p, q) is

      ((((0 + P 0) + P 1) + P 2) + P 3) + bias,

  with P kb the contraction of x's row with the updated weight's row over the kb-th block of columns: the fold form
  of the specification, at row (b, s) and column o where 2048·b + s = 1024·(block row) + p and o = 1024·(block column) + q.
-/
import proofs.«146806_j68702296867424_1_alg».proof.Proof.Gen.KernelIdeal.Frame
import proofs.«146806_j68702296867424_1_alg».proof.Proof.KPieces
import proofs.«146806_j68702296867424_1_alg».proof.Proof.KMath
import proofs.«146806_j68702296867424_1_alg».proof.Proof.KBlocks
import proofs.«146806_j68702296867424_1_alg».proof.Proof.Spec
import Idealize.ShloMosaic.Lib.Pipeline.Value
import Idealize.ShloMosaic.Lib.Tactic
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen

/-- The grid point before `t` (itself at the first point, where nothing reads it). -/
abbrev prev (t : Fin cfg0.N) : Fin cfg0.N := ⟨t.val - 1, Nat.lt_of_le_of_lt (Nat.sub_le _ _) t.isLt⟩

section AnyF
variable {F : FTy → Type} [FloatOps F]
variable (m : (ℓ : Loc nD τ sig) → Buf (Elt F) ℓ)

/-- At a first point the accumulator ends at the reset value updated by the point's block product. -/
theorem sc_A (c : Dev nD) (t : Fin cfg0.N) (h0 : t.val % 4 = 0) (h1 : ¬t.val % 4 = 3) :
    (outsAt0 m c t.val t.isLt).2 = k0_pay2 (k0_pay1 (F := F)) (iblk m c 0 t) (iblk m c 1 t) := by
  rw [outsAt0_A m c t h0 h1]
  dsimp only
  exact sout_A (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- At a middle point the accumulator ends at what the point before left, updated by the point's block product. -/
theorem sc_B (c : Dev nD) (t : Fin cfg0.N) (h0 : ¬t.val % 4 = 0) (h1 : ¬t.val % 4 = 3) :
    (outsAt0 m c t.val t.isLt).2 = k0_pay2 (outsAt0 m c (prev t).val (prev t).isLt).2 (iblk m c 0 t) (iblk m c 1 t) := by
  rw [outsAt0_B m c t h0 h1]
  dsimp only
  exact sout_B (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

/-- At a last point the output block ends at the updated accumulator plus the bias row. -/
theorem out_last (c : Dev nD) (t : Fin cfg0.N) (h0 : ¬t.val % 4 = 0) (h1 : t.val % 4 = 3) :
    (outsAt0 m c t.val t.isLt).1
      = k0_pay3 (k0_pay2 (outsAt0 m c (prev t).val (prev t).isLt).2 (iblk m c 0 t) (iblk m c 1 t)) (iblk m c 2 t) := by
  rw [outsAt0_C m c t h0 h1]
  dsimp only
  exact out_C (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

end AnyF

section AtIdeal
variable (mI : (ℓ : Loc nD τ sig) → Buf (Elt Ideal) ℓ)

/-- Point t's blocks of the flattened x, of the transposed updated weight and of the bias row, at their literal types. -/
abbrev xb (c : Dev nD) (t : Fin cfg0.N) : FVec Ideal S1024x1024 .bf16 := iblk mI c 0 t
abbrev wb (c : Dev nD) (t : Fin cfg0.N) : FVec Ideal S1024x1024 .bf16 := iblk mI c 1 t
abbrev bb (c : Dev nD) (t : Fin cfg0.N) : FVec Ideal S1x1024 .f32 := iblk mI c 2 t

/-- Point n's block product at (p, q) is the specification's contraction over the block of columns n visits. -/
theorem mm_part (c : Dev nD) (n : Fin cfg0.N) (p q : Fin 1024) (b : Fin 4) (s : Fin 2048) (o : Fin 4096) (kb : Fin 4)
    (hb : 2048 * b.val + s.val = 1024 * (n.val / 16) + p.val) (ho : o.val = 1024 * (n.val / 4 % 4) + q.val)
    (hk : kb.val = n.val % 4) :
    ∑ j : Fin 1024, xb mI c n (ix2 p j) * wb mI c n (ix2 j q)
      = Cert.Spec.part (mI ((c : Thread nD τ).loc main_arg0)) (mI ((c : Thread nD τ).loc main_arg1)) (mI ((c : Thread nD τ).loc main_arg2)) (mI ((c : Thread nD τ).loc main_arg3)) b s o kb := by
  unfold Cert.Spec.part
  refine Finset.sum_congr rfl fun j _ => ?_
  have hrow : 2048 * b.val + s.val < 8192 := by have := b.isLt; have := s.isLt; omega
  have e1 := (xblk_apply mI c n p j ⟨2048 * b.val + s.val, hrow⟩ (Cert.Spec.kcol kb j) hb
      (by rw [Cert.Spec.kcol_val, hk])).trans
    (X_apply mI c b s (Cert.Spec.kcol kb j) ⟨2048 * b.val + s.val, hrow⟩ rfl)
  have e2 := (wblk_apply mI c n j q (Cert.Spec.kcol kb j) o (by rw [Cert.Spec.kcol_val, hk]) ho).trans
    (Wt_apply mI c (Cert.Spec.kcol kb j) o)
  exact congrArg₂ (· * ·) e1 e2

variable (c : Dev nD) (p q : Fin 1024) (b : Fin 4) (s : Fin 2048) (o : Fin 4096)

/-- The accumulator after a first point. -/
theorem acc0 (n : Fin cfg0.N) (h : n.val % 4 = 0)
    (hb : 2048 * b.val + s.val = 1024 * (n.val / 16) + p.val) (ho : o.val = 1024 * (n.val / 4 % 4) + q.val) :
    ((outsAt0 mI c n.val n.isLt).2 : FVec Ideal S1024x1024 .f32) (ix2 p q)
      = 0 + Cert.Spec.part (mI ((c : Thread nD τ).loc main_arg0)) (mI ((c : Thread nD τ).loc main_arg1)) (mI ((c : Thread nD τ).loc main_arg2)) (mI ((c : Thread nD τ).loc main_arg3)) b s o 0 := by
  rw [sc_A mI c n h (by omega)]
  exact (pay2_apply (k0_pay1 (F := Ideal)) (xb mI c n) (wb mI c n) p q).trans
    (congrArg₂ (· + ·) (pay1_apply (ix2 p q)) (mm_part mI c n p q b s o 0 hb ho (by show 0 = n.val % 4; omega)))

/-- The accumulator after a second point. -/
theorem acc1 (n : Fin cfg0.N) (h : n.val % 4 = 1)
    (hb : 2048 * b.val + s.val = 1024 * (n.val / 16) + p.val) (ho : o.val = 1024 * (n.val / 4 % 4) + q.val) :
    ((outsAt0 mI c n.val n.isLt).2 : FVec Ideal S1024x1024 .f32) (ix2 p q)
      = (0 + Cert.Spec.part (mI ((c : Thread nD τ).loc main_arg0)) (mI ((c : Thread nD τ).loc main_arg1)) (mI ((c : Thread nD τ).loc main_arg2)) (mI ((c : Thread nD τ).loc main_arg3)) b s o 0) + Cert.Spec.part (mI ((c : Thread nD τ).loc main_arg0)) (mI ((c : Thread nD τ).loc main_arg1)) (mI ((c : Thread nD τ).loc main_arg2)) (mI ((c : Thread nD τ).loc main_arg3)) b s o 1 := by
  rw [sc_B mI c n (by omega) (by omega)]
  exact (pay2_apply (outsAt0 mI c (prev n).val (prev n).isLt).2 (xb mI c n) (wb mI c n) p q).trans
    (congrArg₂ (· + ·)
      (acc0 mI c p q b s o (prev n) (by show (n.val - 1) % 4 = 0; omega)
        (by show _ = 1024 * ((n.val - 1) / 16) + p.val; omega) (by show _ = 1024 * ((n.val - 1) / 4 % 4) + q.val; omega))
      (mm_part mI c n p q b s o 1 hb ho (by show 1 = n.val % 4; omega)))

/-- The accumulator after a third point. -/
theorem acc2 (n : Fin cfg0.N) (h : n.val % 4 = 2)
    (hb : 2048 * b.val + s.val = 1024 * (n.val / 16) + p.val) (ho : o.val = 1024 * (n.val / 4 % 4) + q.val) :
    ((outsAt0 mI c n.val n.isLt).2 : FVec Ideal S1024x1024 .f32) (ix2 p q)
      = ((0 + Cert.Spec.part (mI ((c : Thread nD τ).loc main_arg0)) (mI ((c : Thread nD τ).loc main_arg1)) (mI ((c : Thread nD τ).loc main_arg2)) (mI ((c : Thread nD τ).loc main_arg3)) b s o 0) + Cert.Spec.part (mI ((c : Thread nD τ).loc main_arg0)) (mI ((c : Thread nD τ).loc main_arg1)) (mI ((c : Thread nD τ).loc main_arg2)) (mI ((c : Thread nD τ).loc main_arg3)) b s o 1)
        + Cert.Spec.part (mI ((c : Thread nD τ).loc main_arg0)) (mI ((c : Thread nD τ).loc main_arg1)) (mI ((c : Thread nD τ).loc main_arg2)) (mI ((c : Thread nD τ).loc main_arg3)) b s o 2 := by
  rw [sc_B mI c n (by omega) (by omega)]
  exact (pay2_apply (outsAt0 mI c (prev n).val (prev n).isLt).2 (xb mI c n) (wb mI c n) p q).trans
    (congrArg₂ (· + ·)
      (acc1 mI c p q b s o (prev n) (by show (n.val - 1) % 4 = 1; omega)
        (by show _ = 1024 * ((n.val - 1) / 16) + p.val; omega) (by show _ = 1024 * ((n.val - 1) / 4 % 4) + q.val; omega))
      (mm_part mI c n p q b s o 2 hb ho (by show 2 = n.val % 4; omega)))

/-- THE STORED BLOCK: at a last point the output block at (p, q) is the specification's fold form at (b, s, o). -/
theorem block_value (t : Fin cfg0.N) (h3 : t.val % 4 = 3) (y : S1024x1024.Idx)
    (hb : 2048 * b.val + s.val = 1024 * (t.val / 16) + (y 0).val) (ho : o.val = 1024 * (t.val / 4 % 4) + (y 1).val) :
    ((outsAt0 mI c t.val t.isLt).1 : FVec Ideal S1024x1024 .f32) y
      = Cert.Spec.foldForm (mI ((c : Thread nD τ).loc main_arg0)) (mI ((c : Thread nD τ).loc main_arg1)) (mI ((c : Thread nD τ).loc main_arg2)) (mI ((c : Thread nD τ).loc main_arg3)) (mI ((c : Thread nD τ).loc main_arg4)) (ix3 b s o) := by
  obtain ⟨p, q, rfl⟩ : ∃ (p q : Fin 1024), y = ix2 p q := ⟨y 0, y 1, eq_ix2 y⟩
  rw [out_last mI c t (by omega) h3]
  have hb' : 2048 * b.val + s.val = 1024 * (t.val / 16) + p.val := hb
  have ho' : o.val = 1024 * (t.val / 4 % 4) + q.val := ho
  refine (pay3_apply (k0_pay2 (outsAt0 mI c (prev t).val (prev t).isLt).2 (xb mI c t) (wb mI c t)) (bb mI c t) p q).trans ?_
  unfold Cert.Spec.foldForm
  refine congrArg₂ (· + ·) ?_ ?_
  · exact (pay2_apply (outsAt0 mI c (prev t).val (prev t).isLt).2 (xb mI c t) (wb mI c t) p q).trans
      (congrArg₂ (· + ·)
        (acc2 mI c p q b s o (prev t) (by show (t.val - 1) % 4 = 2; omega)
          (by show _ = 1024 * ((t.val - 1) / 16) + p.val; omega)
          (by show _ = 1024 * ((t.val - 1) / 4 % 4) + q.val; omega))
        (mm_part mI c t p q b s o 3 hb' ho' (by show 3 = t.val % 4; omega)))
  · exact (bblk_apply mI c t q o ho').trans (b6_apply mI c o)

end AtIdeal

end Cert.KernelIdeal.KV

end
-- ==== Proof.KRun.lean ====
/-
  From the stored blocks to the kernel program's result.

  The 32 output blocks, each written back once (at the last of its four grid points), tile the [8192, 4096] result of
  the region; so that array ends at the specification's fold form read at row (r / 2048, r % 2048) and column o. The
  one host operation after the region reshapes it to [4, 2048, 4096], where row 2048·b + s becomes (b, s): the program's
  result is the fold form itself.
-/
import proofs.«146806_j68702296867424_1_alg».proof.Proof.Gen.KernelIdeal.Frame
import proofs.«146806_j68702296867424_1_alg».proof.Proof.KAcc
import proofs.«146806_j68702296867424_1_alg».proof.Proof.Spec
import Idealize.ShloMosaic.Lib.Pipeline.Value
import Idealize.ShloMosaic.Lib.Tactic
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen

/-- The region's result array as a function of the five arguments: the fold form at row (r / 2048, r % 2048). -/
def flat (x : Cert.Spec.SX.Idx → EReal) (W : Cert.Spec.SW.Idx → EReal) (A : Cert.Spec.SA.Idx → EReal) (B : Cert.Spec.SB.Idx → EReal)
    (bias : Cert.Spec.Sb.Idx → EReal) : S8192x4096.Idx → EReal := fun i =>
  Cert.Spec.foldForm x W A B bias
    (ix3 (⟨(i 0).val / 2048, by have h : (i 0).val < 8192 := (i 0).isLt; omega⟩ : Fin 4) (⟨(i 0).val % 2048, by omega⟩ : Fin 2048) (i 1))

variable (mI : (ℓ : Loc nD τ sig) → Buf (Elt Ideal) ℓ) (ρ : Dev nD → PrngReg)

/-- What a last point writes back is its block of `flat`. -/
theorem flushed_eq (c : Dev nD) (t : Fin cfg0.N) (hf : (cfg0.win 3).flush t = true) :
    (dats mI 0 c).flushed 3 t = ((cfg0.win 3).blk t).view.read (Elt Ideal) (flat (mI ((c : Thread nD τ).loc main_arg0)) (mI ((c : Thread nD τ).loc main_arg1)) (mI ((c : Thread nD τ).loc main_arg2)) (mI ((c : Thread nD τ).loc main_arg3)) (mI ((c : Thread nD τ).loc main_arg4))) := by
  have h3 : t.val % 4 = 3 := (flush0_3 t).mp hf
  show (cfg0.win 3).cut (grid0.coords t) ((dats mI 0 c).after 3 t) = _
  rw [after0_3]
  funext y
  obtain ⟨e0, e1⟩ := idx3 t
  have hy0 : (y 0).val < 1024 := (y 0).isLt
  have hy1 : (y 1).val < 1024 := (y 1).isLt
  have hN : t.val < 128 := lt_of_lt_of_eq t.isLt (show cfg0.N = 128 from N_0)
  have hemb0 : ((((cfg0.win 3).blk t).view.emb y) 0).val = 1024 * (t.val / 16) + (y 0).val := by
    show win0_3.index t 0 * 1024 + 1 * (y 0).val = _
    rw [e0]; omega
  have hemb1 : ((((cfg0.win 3).blk t).view.emb y) 1).val = 1024 * (t.val / 4 % 4) + (y 1).val := by
    show win0_3.index t 1 * 1024 + 1 * (y 1).val = _
    rw [e1]; omega
  show ((outsAt0 mI c t.val t.isLt).1 : FVec Ideal S1024x1024 .f32) y = flat (mI ((c : Thread nD τ).loc main_arg0)) (mI ((c : Thread nD τ).loc main_arg1)) (mI ((c : Thread nD τ).loc main_arg2)) (mI ((c : Thread nD τ).loc main_arg3)) (mI ((c : Thread nD τ).loc main_arg4)) (((cfg0.win 3).blk t).view.emb y)
  unfold flat
  exact block_value mI c _ _ _ t h3 y (by show 2048 * (_ / 2048) + _ % 2048 = _; rw [← hemb0]; omega) hemb1

/-- An index of the region's result is in point t's block iff each coordinate is in the block's range. -/
theorem mem_blk (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v7).slice (win0_3.rect t)).set ↔ _
  rw [View.set_slice_whole, Rect.mem_set_unit]
  exact Iff.rfl

/-- Every index is in the block of the last point of its group of four. -/
theorem cover (i : S8192x4096.Idx) : ∃ t : Fin cfg0.N, (cfg0.win 3).flush t = true ∧ i ∈ ((cfg0.win 3).blk t).view.set := by
  have h0 : (i 0).val < 8192 := (i 0).isLt
  have h1 : (i 1).val < 4096 := (i 1).isLt
  have hN : cfg0.N = 128 := N_0
  have hlt : 16 * ((i 0).val / 1024) + 4 * ((i 1).val / 1024) + 3 < cfg0.N := by rw [hN]; omega
  refine ⟨⟨16 * ((i 0).val / 1024) + 4 * ((i 1).val / 1024) + 3, hlt⟩, (flush0_3 _).mpr (by show (16 * ((i 0).val / 1024) + 4 * ((i 1).val / 1024) + 3) % 4 = 3; omega), ?_⟩
  rw [mem_blk]
  obtain ⟨e0, e1⟩ := idx3 ⟨16 * ((i 0).val / 1024) + 4 * ((i 1).val / 1024) + 3, hlt⟩
  intro a
  match a with
  | ⟨0, _⟩ =>
    show win0_3.index _ 0 * 1024 ≤ (i 0).val ∧ (i 0).val < win0_3.index _ 0 * 1024 + 1024
    rw [e0]; dsimp only; omega
  | ⟨1, _⟩ =>
    show win0_3.index _ 1 * 1024 ≤ (i 1).val ∧ (i 1).val < win0_3.index _ 1 * 1024 + 1024
    rw [e1]; dsimp only; omega

/-- The region's result array after the run. -/
theorem final (c : Dev nD) : (dats mI 0 c).arrAt 3 cfg0.N = flat (mI ((c : Thread nD τ).loc main_arg0)) (mI ((c : Thread nD τ).loc main_arg1)) (mI ((c : Thread nD τ).loc main_arg2)) (mI ((c : Thread nD τ).loc main_arg3)) (mI ((c : Thread nD τ).loc main_arg4)) :=
  (dats mI 0 c).arrAt_eq_of_cover 3 (flat (mI ((c : Thread nD τ).loc main_arg0)) (mI ((c : Thread nD τ).loc main_arg1)) (mI ((c : Thread nD τ).loc main_arg2)) (mI ((c : Thread nD τ).loc main_arg3)) (mI ((c : Thread nD τ).loc main_arg4))) (flushed_eq mI c) cover

/-- Reshaped to [4, 2048, 4096], `flat` is the fold form. -/
theorem reshape_flat (x : Cert.Spec.SX.Idx → EReal) (W : Cert.Spec.SW.Idx → EReal) (A : Cert.Spec.SA.Idx → EReal) (B : Cert.Spec.SB.Idx → EReal)
    (bias : Cert.Spec.Sb.Idx → EReal) :
    shapeCast S4x2048x4096 (flat x W A B bias) shapeCasts_S8192x4096_S4x2048x4096 = Cert.Spec.foldForm x W A B bias := by
  funext i
  obtain ⟨b, s, o, rfl⟩ : ∃ (b : Fin 4) (s : Fin 2048) (o : Fin 4096), i = ix3 b s o := ⟨i 0, i 1, i 2, eq_ix3 i⟩
  have hrow : 2048 * b.val + s.val < 8192 := by have := b.isLt; have := s.isLt; omega
  rw [shapeCast_apply (flat x W A B bias) shapeCasts_S8192x4096_S4x2048x4096 (ix3 b s o) (ix2 ⟨2048 * b.val + s.val, hrow⟩ o) (by
    show (S8192x4096.rowMajor (ix2 ⟨2048 * b.val + s.val, hrow⟩ o)).val = (S4x2048x4096.rowMajor (ix3 b s o)).val
    rw [Shape.rowMajor_val_three, Shape.rowMajor_val_two]
    show (2048 * b.val + s.val) * 4096 + o.val = (b.val * 2048 + s.val) * 4096 + o.val
    omega)]
  unfold flat
  congr 1
  funext a
  match a with
  | ⟨0, _⟩ => exact Fin.ext (by show (2048 * b.val + s.val) / 2048 = b.val; have := s.isLt; omega)
  | ⟨1, _⟩ => exact Fin.ext (by show (2048 * b.val + s.val) % 2048 = s.val; have := s.isLt; omega)
  | ⟨2, _⟩ => rfl

/-- The program's result buffer after the host tail. -/
theorem tail_v8 (c : Dev nD) :
    Pipeline.afterTail₀ cfgs (dats mI) 0 (V0 mI) [hostOps1] c main_v8
      = Cert.Spec.foldForm (mI ((c : Thread nD τ).loc main_arg0)) (mI ((c : Thread nD τ).loc main_arg1)) (mI ((c : Thread nD τ).loc main_arg2)) (mI ((c : Thread nD τ).loc main_arg3)) (mI ((c : Thread nD τ).loc main_arg4)) := by
  unfold Pipeline.afterTail₀
  show StableHlo.after hostOps1 _ (Proc.devRef .tc main_v8) = _
  after_results
  have hw : Pipeline.withArrays (cfgs 0).spec c (V0 mI c) (fun w => (dats mI 0 c).arrAt w (cfgs 0).N) (Proc.devRef .tc main_v7)
      = flat (mI ((c : Thread nD τ).loc main_arg0)) (mI ((c : Thread nD τ).loc main_arg1)) (mI ((c : Thread nD τ).loc main_arg2)) (mI ((c : Thread nD τ).loc main_arg3)) (mI ((c : Thread nD τ).loc main_arg4)) :=
    (Pipeline.withArrays_arr spec0 launch0.win.arr_inj c _ _ 3).trans (final mI c)
  rw [hw]
  exact reshape_flat _ _ _ _ _

/-- THE RUN, READ: the kernel program ends with its result at the fold form of its arguments, which it leaves unchanged. -/
theorem run : θ_run defs (onTc (τ := τ) (main (F := Ideal))) ⟨mI, fun _ => 0, ρ⟩ fun r => ∀ c : Dev nD,
      r.2.mem ((c.tc : Thread nD τ).loc main_v8) = Cert.Spec.foldForm (mI ((c : Thread nD τ).loc main_arg0)) (mI ((c : Thread nD τ).loc main_arg1)) (mI ((c : Thread nD τ).loc main_arg2)) (mI ((c : Thread nD τ).loc main_arg3)) (mI ((c : Thread nD τ).loc main_arg4))
      ∧ r.2.mem ((c.tc : Thread nD τ).loc main_arg0) = mI ((c.tc : Thread nD τ).loc main_arg0)
      ∧ r.2.mem ((c.tc : Thread nD τ).loc main_arg1) = mI ((c.tc : Thread nD τ).loc main_arg1)
      ∧ r.2.mem ((c.tc : Thread nD τ).loc main_arg2) = mI ((c.tc : Thread nD τ).loc main_arg2)
      ∧ r.2.mem ((c.tc : Thread nD τ).loc main_arg3) = mI ((c.tc : Thread nD τ).loc main_arg3)
      ∧ r.2.mem ((c.tc : Thread nD τ).loc main_arg4) = mI ((c.tc : Thread nD τ).loc main_arg4) :=
  (θ_run defs _ _).mono (fun _ h c => ⟨((h c).2 main_v8 (Pipeline.mem_restRefs_of main_v8 (by decide) (by decide))).trans (tail_v8 mI c),
      ((h c).2 main_arg0 (Pipeline.mem_restRefs_of main_arg0 (by decide) (by decide))).trans (W_main_arg0 mI (dats mI) c),
      ((h c).2 main_arg1 (Pipeline.mem_restRefs_of main_arg1 (by decide) (by decide))).trans (W_main_arg1 mI (dats mI) c),
      ((h c).2 main_arg2 (Pipeline.mem_restRefs_of main_arg2 (by decide) (by decide))).trans (W_main_arg2 mI (dats mI) c),
      ((h c).2 main_arg3 (Pipeline.mem_restRefs_of main_arg3 (by decide) (by decide))).trans (W_main_arg3 mI (dats mI) c),
      ((h c).2 main_arg4 (Pipeline.mem_restRefs_of main_arg4 (by decide) (by decide))).trans (W_main_arg4 mI (dats mI) c)⟩)
    (run_main mI ρ)

end Cert.KernelIdeal.KV

end
-- ==== Proof.lean ====
/-
  The certificate: a linear layer with a low-rank weight update, y = x · (W + B·A)ᵀ + bias.

  The kernel program adds the update B·A to the weight on the host, transposes, and computes x · (W + B·A)ᵀ in one
  blocked matrix product: an 8 × 4 grid of [1024, 1024] output blocks, each accumulated over four blocks of 1024
  contracted columns in a scratch buffer that is reset at the first of the four steps; the bias row is added when the
  block is stored at the last. The reference computes x · Wᵀ + bias and x · (B·A)ᵀ separately and adds them.

  Over the extended reals the kernel program's result is the specification's fold form (the four block contractions
  added in order from zero, then the bias), and the reference's is its separated form. The two are equal where the
  entries are real numbers, because x·(W + D) = x·W + x·D needs the three factors finite; the precondition "every
  input is finite" supplies exactly that. Format changes (f32 to bf16 and back) are the identity at this reading.

  The three frames are the generated ones (the reference's is its generated run with the result dropped); the ideal
  pass rewrote nothing, so the preservation conjunct is trivial.
-/
import proofs.«146806_j68702296867424_1_alg».proof.Defs
import proofs.«146806_j68702296867424_1_alg».proof.Proof.Gen.Kernel
import proofs.«146806_j68702296867424_1_alg».proof.Proof.Gen.Kernel.Skeleton
import proofs.«146806_j68702296867424_1_alg».proof.Proof.Gen.Kernel.Launch
import proofs.«146806_j68702296867424_1_alg».proof.Proof.Gen.Kernel.Points
import proofs.«146806_j68702296867424_1_alg».proof.Proof.Gen.Kernel.Frame
import proofs.«146806_j68702296867424_1_alg».proof.Proof.Gen.KernelIdeal
import proofs.«146806_j68702296867424_1_alg».proof.Proof.Gen.KernelIdeal.Skeleton
import proofs.«146806_j68702296867424_1_alg».proof.Proof.Gen.KernelIdeal.Launch
import proofs.«146806_j68702296867424_1_alg».proof.Proof.Gen.KernelIdeal.Points
import proofs.«146806_j68702296867424_1_alg».proof.Proof.Gen.KernelIdeal.Frame
import proofs.«146806_j68702296867424_1_alg».proof.Proof.Gen.ReferenceIdeal
import proofs.«146806_j68702296867424_1_alg».proof.Proof.Gen.Pre_finite_inputs
import Idealize.ShloMosaic.Adequacy
import Idealize.ShloMosaic.Init

import proofs.«146806_j68702296867424_1_alg».proof.Proof.Gen.ReferenceIdeal.Run
import proofs.«146806_j68702296867424_1_alg».proof.Proof.Gen.ReferenceIdeal.Read
import proofs.«146806_j68702296867424_1_alg».proof.Proof.Spec
import proofs.«146806_j68702296867424_1_alg».proof.Proof.Finite
import proofs.«146806_j68702296867424_1_alg».proof.Proof.RefValue
import proofs.«146806_j68702296867424_1_alg».proof.Proof.KRun

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at one array: the kernel program at the fold form of its arguments, the reference at the
    separated form of arguments that agree with them, and on finite arguments the two forms are one function. -/
theorem algebraic : Cert.algebraic_KernelIdeal_ReferenceIdeal := by
  intro m ρ m' ρ' hpre hagree
  refine ⟨fun c => Cert.Spec.foldForm (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.KV.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.RefValue.ref_eq_sepForm, (hagree c).1, (hagree c).2.1, (hagree c).2.2.1,
    (hagree c).2.2.2.1, (hagree c).2.2.2.2]
  obtain ⟨h0, h1, h2, h3, _⟩ := Cert.Finite.real_of_pre _ _ _ _ _ (hpre c)
  exact (Cert.Spec.foldForm_eq_sepForm _ h0 h1 h2 h3).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
